-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x64x64 : Shape := ⟨4, ![2, 16, 64, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x64x64 : S_.BroadcastsInDim S2x16x64x64 (![] : Fin 0 → Fin S2x16x64x64.rank)
  reducesTo_S2x16x64x64_S_d0_1_2_3 : S2x16x64x64.ReducesTo [0, 1, 2, 3] S_

variable [Facts]

def fn_part1 {F : FTy → Type} [FloatOps F] (main_v13 : IVec S_ 1) (main_v16 : IVec S2x16x64x64 1) : IVec S_ 1 :=
  let main_c_5 : IVec S_ 1 := constantI S_ 1 1#1
  let main_v17 : IVec S_ 1 := (fun x v => Host.reduce IntOp.andi x v reducesTo_S2x16x64x64_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x16x64x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x64x64 .f32 := Host.absf main_arg3
  let main_cst_4 : FVec F S_ .f32 := constant S_ .f32 0x7F800000#32
  let main_v15 : FVec F S2x16x64x64 .f32 := broadcastInDim S2x16x64x64 ![] bcast_S_S2x16x64x64 main_cst_4
  let main_v16 : IVec S2x16x64x64 1 := cmpf .olt main_v14 main_v15
  fn_part1 (F := F) main_v13 main_v16
-- ==== Kernel.lean ====
abbrev S2x16x2048x64 : Shape := ⟨4, ![2, 16, 2048, 64]⟩
abbrev S2x16x64x64 : Shape := ⟨4, ![2, 16, 64, 64]⟩
abbrev S2x16x2048x2048 : Shape := ⟨4, ![2, 16, 2048, 2048]⟩
abbrev S1x1x1024x64 : Shape := ⟨4, ![1, 1, 1024, 64]⟩
abbrev S1x1x2048x64 : Shape := ⟨4, ![1, 1, 2048, 64]⟩
abbrev S1x1x64x64 : Shape := ⟨4, ![1, 1, 64, 64]⟩
abbrev S1x1x1024x2048 : Shape := ⟨4, ![1, 1, 1024, 2048]⟩
abbrev S1024x64 : Shape := ⟨2, ![1024, 64]⟩
abbrev S2048x64 : Shape := ⟨2, ![2048, 64]⟩
abbrev S64x64 : Shape := ⟨2, ![64, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x64x64, .f32⟩
  | .hbm, ⟨4, _⟩ => ⟨S2x16x2048x64, .f32⟩
  | .hbm, ⟨5, _⟩ => ⟨S2x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x64x64, .f32⟩
  | .local _ .vmem, ⟨7, _⟩ => ⟨S1x1x64x64, .f32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x2048, .f32⟩
  | .local _ .vmem, ⟨11, _⟩ => ⟨S1x1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x2048_S1x1x1024x2048 : S1024x2048.ShapeCasts S1x1x1024x2048
  broadcasts_S1024x1_S1024x64 : S1024x1.Broadcasts S1024x64
  shapeCasts_S1024x64_S1x1x1024x64 : S1024x64.ShapeCasts S1x1x1024x64
  dot_S1024x64_S64x64_S1024x64_1_0_0_1_n_n_wf : DotDims.WF S1024x64 S64x64 S1024x64 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x16x2048x64.size a
  hwx0_0 : ∀ i : grid0.Coords, EltTy.bits .f32 = 32 ∨ (Rect.block (s := S2x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x64.size a ≤ S2x16x64x64.size a
  hwx0_3 : ∀ i : grid0.Coords, EltTy.bits .f32 = 32 ∨ (Rect.block (s := S2x16x64x64) S1x1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S2x16x2048x64.size a
  hwx0_4 : ∀ i : grid0.Coords, EltTy.bits .f32 = 32 ∨ (Rect.block (s := S2x16x2048x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x64x64 : Shape := ⟨4, ![2, 16, 64, 64]⟩
abbrev S_ : Shape := ⟨0, ![]⟩
abbrev S2x16x64x2048 : Shape := ⟨4, ![2, 16, 64, 2048]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x64x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x64x2048, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x64x64_S2x16x2048x64_S2x16x64x2048_2_3_3_2_01_01_wf : DotDims.WF S2x16x64x64 S2x16x2048x64 S2x16x64x2048 [2] [3] [3] [2] [0, 1] [0, 1]
  dot_S2x16x64x2048_S2x16x2048x64_S2x16x2048x2048_2_3_3_2_01_01_wf : DotDims.WF S2x16x64x2048 S2x16x2048x64 S2x16x2048x2048 [2] [3] [3] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x64x64_S2x16x2048x64_S2x16x64x2048_2_3_3_2_01_01 : DotDims S2x16x64x64 S2x16x2048x64 S2x16x64x2048 where
  lhsContracting := [2]
  rhsContracting := [3]
  lhsNonContracting := [3]
  rhsNonContracting := [2]
  lhsBatch := [0, 1]
  rhsBatch := [0, 1]
  wf := dot_S2x16x64x64_S2x16x2048x64_S2x16x64x2048_2_3_3_2_01_01_wf
def dot_S2x16x64x2048_S2x16x2048x64_S2x16x2048x2048_2_3_3_2_01_01 : DotDims S2x16x64x2048 S2x16x2048x64 S2x16x2048x2048 where
  lhsContracting := [2]
  rhsContracting := [3]
  lhsNonContracting := [3]
  rhsNonContracting := [2]
  lhsBatch := [0, 1]
  rhsBatch := [0, 1]
  wf := dot_S2x16x64x2048_S2x16x2048x64_S2x16x2048x2048_2_3_3_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.FiniteInputs.lean ====
/-
  From the printed precondition "every float input is finite" to "every entry of every input
  array is a real number".

  The precondition computes, for each input `a`, the conjunction over all indices of
  `|a i| < +∞`, and joins the four conjunctions. An extended real whose absolute value
  `max x (-x)` is strictly below `⊤` is neither `⊥` nor `⊤`, hence a real.
-/
import proofs.«430944_j14207751815439_3_alg».proof.Pre_finite_inputs
import Idealize.ShloMosaic.PureOps.Ideal
import Idealize.ShloMosaic.PureOps.Ideal.Laws
import Idealize.ShloMosaic.Lib.ReduceAll
import Idealize.ShloMosaic.Lib.ValueIdx

open Idealize.ShloMosaic

namespace FiniteInputs

/-- The scalar shape has exactly one index. -/
instance subsingleton_scalarIdx : Subsingleton Cert.Pre_finite_inputs.S_.Idx :=
  ⟨fun a b => funext fun d => d.elim0⟩

/-- An extended real whose absolute value `max x (-x)` is strictly below `⊤` is a real number:
    at `⊥` the absolute value is `max ⊥ ⊤ = ⊤`, at `⊤` it is `max ⊤ ⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The binary32 pattern `0x7F800000` (all exponent bits set, zero mantissa, sign clear) denotes `+∞`. -/
theorem posInf_bits : Ideal.ofBits .f32 0x7F800000#32 = (⊤ : EReal) := by
  simp [Ideal.ofBits, Ideal.ieee]

/-- The element fact: the ordered comparison `|x| < +∞` answering `1` makes `x` real. -/
theorem real_of_cmp_abs (x : EReal)
    (h : Ideal.cmp .olt (max x (-x)) (Ideal.ofBits .f32 0x7F800000#32) = 1#1) :
    ∃ r : ℝ, x = (r : EReal) := by
  rw [posInf_bits] at h
  refine real_of_abs_lt_top x ?_
  by_contra hn
  simp [Ideal.cmp, hn] at h

/-- One input: if the conjunction over every index of `|a i| < +∞` is `1`, every entry of `a` is real. -/
theorem reals_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, a i = (r : EReal) := by
  intro i
  have hi := Host.reduce_andi_all _ _ hr hu ValueIdx.ix0 e i
  exact real_of_cmp_abs (a i) hi

theorem reals_of_pre [Cert.Pre_finite_inputs.Facts]
    (a0 a1 a2 : FVec Ideal Cert.Pre_finite_inputs.S2x16x2048x64 .f32) (a3 : FVec Ideal Cert.Pre_finite_inputs.S2x16x64x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨e0, e1⟩, e2⟩, e3⟩ := h0
  exact ⟨reals_of_all _ _ _ a0 e0, reals_of_all _ _ _ a1 e1, reals_of_all _ _ _ a2 e2,
    reals_of_all _ _ _ a3 e3⟩

end FiniteInputs
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Tile.lean ====
/-
  One grid point of the attention kernel, read at an index.

  A grid point (b, h, t) holds a tile of 1024 query rows `q`, all 2048 key rows `k` and value rows `v` of the head
  (b, h), and the head's 64 x 64 matrix `w`.  The body scales `w` by 1/8, forms `q (w/8)`, then the scores
  `(q (w/8)) kᵀ`, subtracts each row's maximum, exponentiates, and divides by the row's sum; the second result is
  the product of the exponentials with `v`, scaled by the reciprocal of the row's sum afterwards.

  Here each of these values is read at an index as a plain sum over `Fin`: a matrix product is the sum over the
  contracted coordinate, a row maximum the fold of `max` over the row, a row sum the sum over the row.
-/
import proofs.«430944_j14207751815439_3_alg».proof.Proof.Gen.KernelIdeal.Skeleton
import proofs.«430944_j14207751815439_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## Layout operations of the body at literal shapes -/

section Layout
variable {α : Type}

/-- A block with two leading unit axes read as a matrix: entry (r, c) is entry (0, 0, r, c). -/
theorem cast_q (x : S1x1x1024x64.Idx → α) (r : Fin 1024) (c : Fin 64) :
    shapeCast S1024x64 x Facts₀.shapeCasts_S1x1x1024x64_S1024x64 (ix2 r c) = x (ix4 (0 : Fin 1) (0 : Fin 1) r c) :=
  shapeCast_apply x _ _ _ (by
    rw [Shape.rowMajor_val_two, Shape.rowMajor_val_four]
    show ((0 * 1 + 0) * 1024 + r.val) * 64 + c.val = r.val * 64 + c.val; omega)

theorem cast_kv (x : S1x1x2048x64.Idx → α) (r : Fin 2048) (c : Fin 64) :
    shapeCast S2048x64 x Facts₀.shapeCasts_S1x1x2048x64_S2048x64 (ix2 r c) = x (ix4 (0 : Fin 1) (0 : Fin 1) r c) :=
  shapeCast_apply x _ _ _ (by
    rw [Shape.rowMajor_val_two, Shape.rowMajor_val_four]
    show ((0 * 1 + 0) * 2048 + r.val) * 64 + c.val = r.val * 64 + c.val; omega)

theorem cast_w (x : S1x1x64x64.Idx → α) (r : Fin 64) (c : Fin 64) :
    shapeCast S64x64 x Facts₀.shapeCasts_S1x1x64x64_S64x64 (ix2 r c) = x (ix4 (0 : Fin 1) (0 : Fin 1) r c) :=
  shapeCast_apply x _ _ _ (by
    rw [Shape.rowMajor_val_two, Shape.rowMajor_val_four]
    show ((0 * 1 + 0) * 64 + r.val) * 64 + c.val = r.val * 64 + c.val; omega)

/-- A vector of 1024 entries as a column: entry (r, 0) is entry r. -/
theorem cast_col (x : S1024.Idx → α) (r : Fin 1024) :
    shapeCast S1024x1 x Facts₀.shapeCasts_S1024_S1024x1 (ix2 r (0 : Fin 1)) = x (ix1 r) :=
  shapeCast_apply x _ _ _ (by
    rw [Shape.rowMajor_val_one, Shape.rowMajor_val_two]
    show r.val = r.val * 1 + 0; omega)

/-- A column broadcast along 2048 lanes: entry (r, c) is the column's entry (r, 0). -/
theorem bcast_col_2048 (x : S1024x1.Idx → α) (r : Fin 1024) (c : Fin 2048) :
    broadcastTo S1024x2048 x Facts₀.broadcasts_S1024x1_S1024x2048 (ix2 r c) = x (ix2 r (0 : Fin 1)) :=
  broadcastTo_apply x _ _ _ (fun a => match a with
    | ⟨0, _⟩ => by show r.val = (if (1024 : Nat) = 1 then 0 else r.val); rw [if_neg (by decide)]
    | ⟨1, _⟩ => by show 0 = (if (1 : Nat) = 1 then 0 else c.val); rw [if_pos rfl])

/-- A column broadcast along 64 lanes. -/
theorem bcast_col_64 (x : S1024x1.Idx → α) (r : Fin 1024) (c : Fin 64) :
    broadcastTo S1024x64 x Facts₀.broadcasts_S1024x1_S1024x64 (ix2 r c) = x (ix2 r (0 : Fin 1)) :=
  broadcastTo_apply x _ _ _ (fun a => match a with
    | ⟨0, _⟩ => by show r.val = (if (1024 : Nat) = 1 then 0 else r.val); rw [if_neg (by decide)]
    | ⟨1, _⟩ => by show 0 = (if (1 : Nat) = 1 then 0 else c.val); rw [if_pos rfl])

/-- Row r of a 1024 x 2048 matrix with lane n put back is (r, n). -/
theorem lift_row (r : Fin 1024) (n : Fin 2048) :
    Facts₀.reduces_S1024x2048_S1024.lift (ix1 r) n = ix2 r n := by
  funext c; apply Fin.ext
  match c with
  | ⟨0, _⟩ => rfl
  | ⟨1, _⟩ => rfl

end Layout

/-! ## The body's values at an index -/

/-- The scale the body splats over `w`: the f32 word of 1/8. -/
abbrev eighth : Ideal .f32 := Scalar.ofBits (F := Ideal) .f32 0x3E000000#32

/-- Entry (l, e) of `q (w/8)`: the sum over the 64 coordinates d of q(l, d) (w(d, e) / 8). -/
def qw (q : FVec Ideal S1x1x1024x64 .f32) (w : FVec Ideal S1x1x64x64 .f32) (l : Fin 1024) (e : Fin 64) : EReal :=
  ∑ d : Fin 64, q (ix4 (0 : Fin 1) (0 : Fin 1) l d) * (w (ix4 (0 : Fin 1) (0 : Fin 1) d e) * eighth)

/-- The score of query row l against key row n: the sum over e of (q (w/8))(l, e) k(n, e). -/
def score (q : FVec Ideal S1x1x1024x64 .f32) (k : FVec Ideal S1x1x2048x64 .f32) (w : FVec Ideal S1x1x64x64 .f32)
    (l : Fin 1024) (n : Fin 2048) : EReal :=
  ∑ e : Fin 64, qw q w l e * k (ix4 (0 : Fin 1) (0 : Fin 1) n e)

/-- The running maximum of row l's scores, from -∞. -/
def rowMax (q : FVec Ideal S1x1x1024x64 .f32) (k : FVec Ideal S1x1x2048x64 .f32) (w : FVec Ideal S1x1x64x64 .f32)
    (l : Fin 1024) : EReal :=
  (Finset.univ : Finset (Fin 2048)).fold max (Ideal.ofBits .f32 0xFF800000#32) (fun n => score q k w l n)

/-- The exponential of a score less its row's maximum. -/
def expo (q : FVec Ideal S1x1x1024x64 .f32) (k : FVec Ideal S1x1x2048x64 .f32) (w : FVec Ideal S1x1x64x64 .f32)
    (l : Fin 1024) (n : Fin 2048) : EReal :=
  Ideal.exp (score q k w l n - rowMax q k w l)

/-- The body's first product as a vector. -/
abbrev qwVec (q : FVec Ideal S1x1x1024x64 .f32) (w : FVec Ideal S1x1x64x64 .f32) : FVec Ideal S1024x64 .f32 :=
  matmul dot_S1024x64_S64x64_S1024x64_1_0_0_1_n_n (some .fp32) (shapeCast S1024x64 q Facts₀.shapeCasts_S1x1x1024x64_S1024x64)
    (mulf (shapeCast S64x64 w Facts₀.shapeCasts_S1x1x64x64_S64x64) (broadcast S64x64 (Scalar.ofBits (F := Ideal) .f32 0x3E000000#32)))
    (constant (F := Ideal) S1024x64 .f32 0x00000000#32)

/-- The body's scores as a vector. -/
abbrev scoreVec (q : FVec Ideal S1x1x1024x64 .f32) (k : FVec Ideal S1x1x2048x64 .f32) (w : FVec Ideal S1x1x64x64 .f32) :
    FVec Ideal S1024x2048 .f32 :=
  matmul dot_S1024x64_S64x2048_S1024x2048_1_0_0_1_n_n (some .fp32) (qwVec q w)
    (transpose S64x2048 [1, 0] (shapeCast S2048x64 k Facts₀.shapeCasts_S1x1x2048x64_S2048x64) Facts₀.transposes_S2048x64_p1_0_S64x2048)
    (constant (F := Ideal) S1024x2048 .f32 0x00000000#32)

theorem qwVec_apply (q : FVec Ideal S1x1x1024x64 .f32) (w : FVec Ideal S1x1x64x64 .f32) (l : Fin 1024) (e : Fin 64) :
    qwVec q w (ix2 l e) = qw q w l e := by
  refine (Ideal.matmul_constant_zero_apply _ _ _ _ _).trans ?_
  refine (PlainDot.sum_eq dot_S1024x64_S64x64_S1024x64_1_0_0_1_n_n rfl rfl rfl rfl rfl rfl _ _ l e).trans ?_
  unfold qw
  refine Finset.sum_congr rfl fun d _ => ?_
  rw [cast_q, mulf_apply, cast_w]
  rfl

theorem scoreVec_apply (q : FVec Ideal S1x1x1024x64 .f32) (k : FVec Ideal S1x1x2048x64 .f32) (w : FVec Ideal S1x1x64x64 .f32)
    (l : Fin 1024) (n : Fin 2048) : scoreVec q k w (ix2 l n) = score q k w l n := by
  refine (Ideal.matmul_constant_zero_apply _ _ _ _ _).trans ?_
  refine (PlainDot.sum_eq dot_S1024x64_S64x2048_S1024x2048_1_0_0_1_n_n rfl rfl rfl rfl rfl rfl _ _ l n).trans ?_
  unfold score
  refine Finset.sum_congr rfl fun e _ => ?_
  rw [qwVec_apply, transpose_ix2_apply, cast_kv]

set_option maxRecDepth 65536 in
/-- The exponentials as the body computes them, spelt as one tree of vector operations. -/
theorem pay2_eq (q : FVec Ideal S1x1x1024x64 .f32) (k : FVec Ideal S1x1x2048x64 .f32) (w : FVec Ideal S1x1x64x64 .f32) :
    k0_pay2 (F := Ideal) q k w
      = exp (subf (scoreVec q k w) (broadcastTo S1024x2048 (shapeCast S1024x1
          (multiReduction .maximumf [1] S1024 (scoreVec q k w) 0xFF800000#32 Facts₀.reduces_S1024x2048_S1024 (.inl rfl) rfl)
          Facts₀.shapeCasts_S1024_S1024x1) Facts₀.broadcasts_S1024x1_S1024x2048)) := rfl

/-- Row l's maximum as the body reduces it is the running maximum of the row's scores. -/
theorem rowMaxVec_apply (q : FVec Ideal S1x1x1024x64 .f32) (k : FVec Ideal S1x1x2048x64 .f32) (w : FVec Ideal S1x1x64x64 .f32)
    (l : Fin 1024) :
    multiReduction .maximumf [1] S1024 (scoreVec q k w) 0xFF800000#32 Facts₀.reduces_S1024x2048_S1024 (.inl rfl) rfl (ix1 l)
      = rowMax q k w l := by
  refine (Ideal.multiReduction_maximumf_single (scoreVec q k w) 0xFF800000#32 Facts₀.reduces_S1024x2048_S1024 (.inl rfl) rfl (ix1 l)).trans ?_
  show (Finset.univ : Finset (Fin 2048)).fold max (Ideal.ofBits .f32 0xFF800000#32)
    (fun n : Fin 2048 => scoreVec q k w (Facts₀.reduces_S1024x2048_S1024.lift (ix1 l) n)) = _
  unfold rowMax
  refine congrArg (fun f => Finset.fold max (Ideal.ofBits .f32 0xFF800000#32) f (Finset.univ : Finset (Fin 2048))) ?_
  funext n
  rw [lift_row, scoreVec_apply]

/-- THE EXPONENTIALS at (l, n). -/
theorem pay2_apply (q : FVec Ideal S1x1x1024x64 .f32) (k : FVec Ideal S1x1x2048x64 .f32) (w : FVec Ideal S1x1x64x64 .f32)
    (l : Fin 1024) (n : Fin 2048) : k0_pay2 (F := Ideal) q k w (ix2 l n) = expo q k w l n := by
  rw [pay2_eq]
  show Ideal.exp (scoreVec q k w (ix2 l n) - broadcastTo S1024x2048 _ Facts₀.broadcasts_S1024x1_S1024x2048 (ix2 l n)) = _
  rw [bcast_col_2048, cast_col, rowMaxVec_apply, scoreVec_apply]
  rfl

/-- THE ROW SUM of the exponentials at l. -/
theorem rowSum_apply (q : FVec Ideal S1x1x1024x64 .f32) (k : FVec Ideal S1x1x2048x64 .f32) (w : FVec Ideal S1x1x64x64 .f32)
    (l : Fin 1024) :
    multiReduction .add [1] S1024 (k0_pay2 (F := Ideal) q k w) 0x00000000#32 Facts₀.reduces_S1024x2048_S1024 (.inl rfl) rfl (ix1 l)
      = ∑ n : Fin 2048, expo q k w l n := by
  refine (Ideal.multiReduction_add_single (k0_pay2 (F := Ideal) q k w) 0x00000000#32 Facts₀.reduces_S1024x2048_S1024 (.inl rfl) rfl (ix1 l)).trans ?_
  show ∑ n : Fin 2048, k0_pay2 (F := Ideal) q k w (Facts₀.reduces_S1024x2048_S1024.lift (ix1 l) n) = _
  refine Finset.sum_congr rfl fun n _ => ?_
  rw [lift_row, pay2_apply]

/-- THE PRODUCT OF THE EXPONENTIALS WITH v at (l, d): the sum over the 2048 key rows. -/
theorem pay5_apply (q : FVec Ideal S1x1x1024x64 .f32) (k v : FVec Ideal S1x1x2048x64 .f32) (w : FVec Ideal S1x1x64x64 .f32)
    (l : Fin 1024) (d : Fin 64) :
    k0_pay5 (F := Ideal) q k v w (ix2 l d) = ∑ n : Fin 2048, expo q k w l n * v (ix4 (0 : Fin 1) (0 : Fin 1) n d) := by
  show matmul dot_S1024x2048_S2048x64_S1024x64_1_0_0_1_n_n (some .fp32) (k0_pay2 (F := Ideal) q k w)
    (shapeCast S2048x64 v Facts₀.shapeCasts_S1x1x2048x64_S2048x64) (constant (F := Ideal) S1024x64 .f32 0x00000000#32) (ix2 l d) = _
  refine (Ideal.matmul_constant_zero_apply _ _ _ _ _).trans ?_
  refine (PlainDot.sum_eq dot_S1024x2048_S2048x64_S1024x64_1_0_0_1_n_n rfl rfl rfl rfl rfl rfl _ _ l d).trans ?_
  refine Finset.sum_congr rfl fun n _ => ?_
  rw [pay2_apply, cast_kv]

end Cert.KernelIdeal.Tile

end
-- ==== Proof.RefRows.lean ====
/-
  The reference, read at an index.

  For the head (b, h) and the query row l the reference forms the scores
  s(n) = (Σ_e (Σ_d w(d, e) q(l, d)) k(n, e)) · 64^(-1/2) against the 2048 key rows n, takes the row's maximum (joined
  once more with -∞), exponentiates the scores less that maximum, divides each exponential by the row's sum (added to
  the initial value 0), and multiplies the resulting weights with the value rows.  Each stage is read here at an index
  of the form (b, h, l, ·), as sums and a fold over `Fin`.
-/
import proofs.«430944_j14207751815439_3_alg».proof.Proof.Gen.ReferenceIdeal.Read
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx

variable (x0 x1 x2 : FVec Ideal S2x16x2048x64 .f32) (x3 : FVec Ideal S2x16x64x64 .f32)

/-- The scale as the reference computes it: 64 to the power -1/2. -/
abbrev scale : EReal := Ideal.pow (Ideal.ofBits .f32 0x42800000#32) (Ideal.ofBits .f32 0xBF000000#32)

/-- The score of query row l against key row n in head (b, h). -/
def score (b : Fin 2) (h : Fin 16) (l n : Fin 2048) : EReal :=
  (∑ e : Fin 64, (∑ d : Fin 64, x3 (ix4 b h d e) * x0 (ix4 b h l d)) * x1 (ix4 b h n e)) * scale

/-- The row's maximum: the running maximum from -∞, joined with -∞ once more. -/
def rowMax (b : Fin 2) (h : Fin 16) (l : Fin 2048) : EReal :=
  max (Ideal.ofBits .f32 0xFF800000#32)
    ((Finset.univ : Finset (Fin 2048)).fold max (Ideal.ofBits .f32 0xFF800000#32) (fun n => score x0 x1 x3 b h l n))

/-- The exponential of a score less its row's maximum. -/
def expo (b : Fin 2) (h : Fin 16) (l n : Fin 2048) : EReal :=
  Ideal.exp (score x0 x1 x3 b h l n - rowMax x0 x1 x3 b h l)

/-- The attention weight: the exponential over the row's sum. -/
def weight (b : Fin 2) (h : Fin 16) (l n : Fin 2048) : EReal :=
  Ideal.div (expo x0 x1 x3 b h l n) (Ideal.ofBits .f32 0x00000000#32 + ∑ j : Fin 2048, expo x0 x1 x3 b h l j)

/-! ## The composed index functions at (b, h, l, ·) -/

theorem lidx1 (b : Fin 2) (h : Fin 16) (l n : Fin 2048) (e d : Fin 64) :
    lidx_main_v1 (lidx_main_v2 (ix4 b h l n) e) d = ix4 b h d e := by
  funext a; apply Fin.ext
  match a with
  | ⟨0, _⟩ => rfl
  | ⟨1, _⟩ => rfl
  | ⟨2, _⟩ => rfl
  | ⟨3, _⟩ => rfl

theorem ridx1 (b : Fin 2) (h : Fin 16) (l n : Fin 2048) (e d : Fin 64) :
    ridx_main_v1 (lidx_main_v2 (ix4 b h l n) e) d = ix4 b h l d := by
  funext a; apply Fin.ext
  match a with
  | ⟨0, _⟩ => rfl
  | ⟨1, _⟩ => rfl
  | ⟨2, _⟩ => rfl
  | ⟨3, _⟩ => rfl

theorem ridx2 (b : Fin 2) (h : Fin 16) (l n : Fin 2048) (e : Fin 64) :
    ridx_main_v2 (ix4 b h l n) e = ix4 b h n e := by
  funext a; apply Fin.ext
  match a with
  | ⟨0, _⟩ => rfl
  | ⟨1, _⟩ => rfl
  | ⟨2, _⟩ => rfl
  | ⟨3, _⟩ => rfl

theorem idx89 (b : Fin 2) (h : Fin 16) (l n : Fin 2048) : idx_main_v8 (idx_main_v9 (ix4 b h l n)) = ix3 b h l := by
  funext a; apply Fin.ext
  match a with
  | ⟨0, _⟩ => rfl
  | ⟨1, _⟩ => rfl
  | ⟨2, _⟩ => rfl

theorem idx1314 (b : Fin 2) (h : Fin 16) (l n : Fin 2048) : idx_main_v13 (idx_main_v14 (ix4 b h l n)) = ix3 b h l := by
  funext a; apply Fin.ext
  match a with
  | ⟨0, _⟩ => rfl
  | ⟨1, _⟩ => rfl
  | ⟨2, _⟩ => rfl

theorem idx12 (b : Fin 2) (h : Fin 16) (l j : Fin 2048) : idx_main_v12 (ix3 b h l) j = ix4 b h l j := by
  funext a; apply Fin.ext
  match a with
  | ⟨0, _⟩ => rfl
  | ⟨1, _⟩ => rfl
  | ⟨2, _⟩ => rfl
  | ⟨3, _⟩ => rfl

theorem lidx16 (b : Fin 2) (h : Fin 16) (l : Fin 2048) (d : Fin 64) (n : Fin 2048) :
    lidx_main_v16 (ix4 b h l d) n = ix4 b h l n := by
  funext a; apply Fin.ext
  match a with
  | ⟨0, _⟩ => rfl
  | ⟨1, _⟩ => rfl
  | ⟨2, _⟩ => rfl
  | ⟨3, _⟩ => rfl

theorem ridx16 (b : Fin 2) (h : Fin 16) (l : Fin 2048) (d : Fin 64) (n : Fin 2048) :
    ridx_main_v16 (ix4 b h l d) n = ix4 b h n d := by
  funext a; apply Fin.ext
  match a with
  | ⟨0, _⟩ => rfl
  | ⟨1, _⟩ => rfl
  | ⟨2, _⟩ => rfl
  | ⟨3, _⟩ => rfl

set_option maxRecDepth 65536 in
/-- The reduction over the last axis, as a fact about the two shapes. -/
theorem red3 : S2x16x2048x2048.Reduces [3] S2x16x2048 := by decide

/-- Row (b, h, l) with lane n put back is (b, h, l, n). -/
theorem lift_row (b : Fin 2) (h : Fin 16) (l n : Fin 2048) : red3.lift (ix3 b h l) n = ix4 b h l n := by
  funext c; apply Fin.ext
  match c with
  | ⟨0, _⟩ => rfl
  | ⟨1, _⟩ => rfl
  | ⟨2, _⟩ => rfl
  | ⟨3, _⟩ => rfl

/-! ## The stages at (b, h, l, ·) -/

/-- The scaled scores. -/
theorem v4_at (b : Fin 2) (h : Fin 16) (l n : Fin 2048) :
    val_main_v4 (F := Ideal) x0 x1 x3 (ix4 b h l n) = score x0 x1 x3 b h l n := by
  rw [val_main_v4_apply, val_main_v2_apply, val_main_v3_apply, val_main_v0_apply, val_main_cst_apply, val_main_cst_0_apply]
  show (∑ e : Fin 64, val_main_v1 (F := Ideal) x0 x3 (lidx_main_v2 (ix4 b h l n) e) * x1 (ridx_main_v2 (ix4 b h l n) e)) * scale = _
  unfold score
  refine congrArg (· * scale) (Finset.sum_congr rfl fun e _ => ?_)
  rw [val_main_v1_apply, ridx2]
  refine congrArg (· * x1 (ix4 b h n e)) (Finset.sum_congr rfl fun d _ => ?_)
  rw [lidx1, ridx1]

set_option maxRecDepth 65536 in
/-- The row's maximum. -/
theorem v7_at (b : Fin 2) (h : Fin 16) (l : Fin 2048) :
    val_main_v7 (F := Ideal) x0 x1 x3 (ix3 b h l) = rowMax x0 x1 x3 b h l := by
  rw [val_main_v7_apply, val_main_v6_apply, val_main_cst_2_apply]
  show max (Ideal.ofBits .f32 0xFF800000#32) (val_main_v5 (F := Ideal) x0 x1 x3 (ix3 b h l)) = _
  unfold rowMax
  refine congrArg (max (Ideal.ofBits .f32 0xFF800000#32)) ?_
  unfold val_main_v5
  refine (Host.reduce_eq_fold_single (FloatOps.maximumf (F := Ideal) (φ := .f32)) (val_main_v4 (F := Ideal) x0 x1 x3) (val_main_cst_1 (F := Ideal))
    Facts₀.reducesTo_S2x16x2048x2048_S2x16x2048_d3 red3 Facts₀.h_S_ (ix3 b h l)).trans ?_
  show (Finset.univ : Finset (Fin 2048)).fold max (Ideal.ofBits .f32 0xFF800000#32)
    (fun n : Fin 2048 => val_main_v4 (F := Ideal) x0 x1 x3 (red3.lift (ix3 b h l) n)) = _
  refine congrArg (fun f => Finset.fold max (Ideal.ofBits .f32 0xFF800000#32) f (Finset.univ : Finset (Fin 2048))) ?_
  funext n
  rw [lift_row, v4_at]

/-- The exponentials. -/
theorem v11_at (b : Fin 2) (h : Fin 16) (l n : Fin 2048) :
    val_main_v11 (F := Ideal) x0 x1 x3 (ix4 b h l n) = expo x0 x1 x3 b h l n := by
  rw [val_main_v11_apply, val_main_v10_apply, val_main_v9_apply, val_main_v8_apply, idx89, v7_at, v4_at]
  rfl

/-- The attention weights. -/
theorem v15_at (b : Fin 2) (h : Fin 16) (l n : Fin 2048) :
    val_main_v15 (F := Ideal) x0 x1 x3 (ix4 b h l n) = weight x0 x1 x3 b h l n := by
  rw [val_main_v15_apply, val_main_v14_apply, val_main_v13_apply, idx1314, val_main_v12_apply, v11_at]
  unfold weight
  show Ideal.div _ (Ideal.ofBits .f32 0x00000000#32 + ∑ j : Fin 2048, val_main_v11 (F := Ideal) x0 x1 x3 (idx_main_v12 (ix3 b h l) j)) = _
  refine congrArg (fun s => Ideal.div (expo x0 x1 x3 b h l n) (Ideal.ofBits .f32 0x00000000#32 + s)) (Finset.sum_congr rfl fun j _ => ?_)
  rw [idx12, v11_at]

/-- The output: the weights' product with the value rows. -/
theorem v16_at (b : Fin 2) (h : Fin 16) (l : Fin 2048) (d : Fin 64) :
    val_main_v16 (F := Ideal) x0 x1 x2 x3 (ix4 b h l d) = ∑ n : Fin 2048, weight x0 x1 x3 b h l n * x2 (ix4 b h n d) := by
  rw [val_main_v16_apply]
  refine Finset.sum_congr rfl fun n _ => ?_
  rw [lidx16, ridx16, v15_at]

end Cert.ReferenceIdeal.Rows

end
-- ==== Proof.SoftmaxAlgebra.lean ====
import Idealize.ShloMosaic.PureOps.Ideal
import Idealize.ShloMosaic.PureOps.Ideal.Laws
import Mathlib.Data.EReal.Basic
import Mathlib.Data.EReal.Operations
import Mathlib.Data.Finset.Fold
import Mathlib.Algebra.BigOperators.Group.Finset.Basic
import Mathlib.Algebra.BigOperators.Ring.Finset
import Mathlib.Algebra.Order.BigOperators.Group.Finset
import Mathlib.Analysis.SpecialFunctions.Pow.Real
import Mathlib.Analysis.SpecialFunctions.Exp

/-!
# Algebra of a scaled-score softmax on the extended reals

Everything here is about extended reals that are in fact real numbers: four literal
values, the rearrangement of a bilinear score, and the two ways of normalising a row of
exponentials (multiply by the reciprocal of the sum, or divide by the sum).  The method is
the same throughout: write every entry as the coercion of a real, move the coercion to the
outside of the expression, and finish with an identity of real numbers.
-/

open Idealize.ShloMosaic
open scoped BigOperators

namespace SoftmaxAlgebra

/-! ### Coercion lemmas -/

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t ?_ ?_
  · simp
  · intro a s ha ih
    rw [Finset.sum_insert ha, Finset.sum_insert ha, EReal.coe_add, ih]

/-- The coercion is monotone, so it commutes with the maximum of two reals. -/
theorem coe_max (a b : ℝ) : ((max a b : ℝ) : EReal) = max (a : EReal) (b : EReal) :=
  EReal.coe_strictMono.monotone.map_max

/-- The running maximum, started at `⊥`, of a nonempty family of reals is a real. -/
theorem fold_max_real {ι : Type*} {t : Finset ι} (ht : t.Nonempty) (S : ι → ℝ) :
    ∃ m : ℝ, t.fold max (⊥ : EReal) (fun j => (S j : EReal)) = (m : EReal) := by
  refine Finset.Nonempty.cons_induction
    (motive := fun t _ => ∃ m : ℝ, t.fold max (⊥ : EReal) (fun j => (S j : EReal)) = (m : EReal))
    ?_ ?_ ht
  · intro a
    exact ⟨S a, by rw [Finset.fold_singleton, max_bot_right]⟩
  · intro a s ha _ ih
    obtain ⟨m, hm⟩ := ih
    exact ⟨max (S a) m, by rw [Finset.fold_cons, hm, coe_max]⟩

/-! ### Four literals -/

theorem ofBits_one : Ideal.ofBits .f32 0x3F800000#32 = (1 : EReal) := by
  simp [Ideal.ofBits, Ideal.ieee]
  rw [← EReal.coe_mul, ← EReal.coe_one]
  congr 1
  norm_num

theorem ofBits_neg_inf : Ideal.ofBits .f32 0xFF800000#32 = (⊥ : EReal) := by
  simp [Ideal.ofBits, Ideal.ieee]

theorem ofBits_eighth : Ideal.ofBits .f32 0x3E000000#32 = ((1 / 8 : ℝ) : EReal) := by
  simp [Ideal.ofBits, Ideal.ieee]
  rw [← EReal.coe_mul]
  congr 1
  norm_num

/-- The word `0x42800000` is `2 ^ 23 · 2 ^ (133 - 150) = 64`. -/
theorem ofBits_64 : Ideal.ofBits .f32 0x42800000#32 = ((64 : ℝ) : EReal) := by
  simp [Ideal.ofBits, Ideal.ieee]
  rw [← EReal.coe_mul]
  congr 1
  norm_num

/-- The word `0xBF000000` is `-(2 ^ 23 · 2 ^ (126 - 150)) = -1/2`. -/
theorem ofBits_neg_half : Ideal.ofBits .f32 0xBF000000#32 = ((-1 / 2 : ℝ) : EReal) := by
  simp [Ideal.ofBits, Ideal.ieee]
  rw [← EReal.coe_mul, ← EReal.coe_neg]
  congr 1
  norm_num

/-- `64 ^ (-1/2) = (8 ^ 2) ^ (-1/2) = 8 ^ (-1) = 1/8`. -/
theorem rpow_64 : Real.rpow 64 (-1 / 2) = 1 / 8 := by
  show (64 : ℝ) ^ ((-1 / 2 : ℝ)) = 1 / 8
  have h : (64 : ℝ) = 8 ^ (2 : ℝ) := by norm_num
  rw [h, ← Real.rpow_mul (by norm_num)]
  norm_num

theorem pow_64_neg_half :
    Ideal.pow (Ideal.ofBits .f32 0x42800000#32) (Ideal.ofBits .f32 0xBF000000#32)
      = ((1 / 8 : ℝ) : EReal) := by
  rw [ofBits_64, ofBits_neg_half, Ideal.pow_coe_coe, rpow_64]

/-! ### The bilinear score -/

/-- The identity of real numbers behind `score_eq`: a common factor `c` of every weight
    comes out of the double sum, and the order of the two factors of each product does not
    matter. -/
theorem score_eq_real {D E : ℕ} (Q : Fin D → ℝ) (W : Fin D → Fin E → ℝ) (K : Fin E → ℝ) (C : ℝ) :
    (∑ e : Fin E, (∑ d : Fin D, Q d * (W d e * C)) * K e)
      = (∑ e : Fin E, (∑ d : Fin D, W d e * Q d) * K e) * C := by
  simp only [Finset.sum_mul]
  refine Finset.sum_congr rfl fun e _ => Finset.sum_congr rfl fun d _ => ?_
  ring

theorem score_eq {D E : ℕ} (q : Fin D → EReal) (w : Fin D → Fin E → EReal) (k : Fin E → EReal) (c : EReal)
    (hq : ∀ d, ∃ r : ℝ, q d = (r : EReal)) (hw : ∀ d e, ∃ r : ℝ, w d e = (r : EReal)) (hk : ∀ e, ∃ r : ℝ, k e = (r : EReal)) (hc : ∃ r : ℝ, c = (r : EReal)) :
    (∑ e : Fin E, (∑ d : Fin D, q d * (w d e * c)) * k e) = (∑ e : Fin E, (∑ d : Fin D, w d e * q d) * k e) * c := by
  choose Q hQ using hq
  choose W hW using hw
  choose K hK using hk
  obtain ⟨C, rfl⟩ := hc
  simp only [hQ, hW, hK]
  calc (∑ e : Fin E, (∑ d : Fin D, (Q d : EReal) * ((W d e : EReal) * (C : EReal))) * (K e : EReal))
      = ((∑ e : Fin E, (∑ d : Fin D, Q d * (W d e * C)) * K e : ℝ) : EReal) := by
        simp only [coe_sum, EReal.coe_mul]
    _ = (((∑ e : Fin E, (∑ d : Fin D, W d e * Q d) * K e) * C : ℝ) : EReal) := by
        rw [score_eq_real]
    _ = (∑ e : Fin E, (∑ d : Fin D, (W d e : EReal) * (Q d : EReal)) * (K e : EReal)) * (C : EReal) := by
        simp only [coe_sum, EReal.coe_mul]

theorem score_real {D E : ℕ} (q : Fin D → EReal) (w : Fin D → Fin E → EReal) (k : Fin E → EReal) (c : EReal)
    (hq : ∀ d, ∃ r : ℝ, q d = (r : EReal)) (hw : ∀ d e, ∃ r : ℝ, w d e = (r : EReal)) (hk : ∀ e, ∃ r : ℝ, k e = (r : EReal)) (hc : ∃ r : ℝ, c = (r : EReal)) :
    ∃ r : ℝ, (∑ e : Fin E, (∑ d : Fin D, w d e * q d) * k e) * c = (r : EReal) := by
  choose Q hQ using hq
  choose W hW using hw
  choose K hK using hk
  obtain ⟨C, rfl⟩ := hc
  refine ⟨(∑ e : Fin E, (∑ d : Fin D, W d e * Q d) * K e) * C, ?_⟩
  simp only [hQ, hW, hK, coe_sum, EReal.coe_mul]

/-! ### The softmax weights and the weighted sum -/

/-- A row of `N > 0` real scores: its running maximum is a real `m`, and the sum of the
    exponentials of the scores less `m` is a positive real. -/
theorem row_real {N : ℕ} (hN : 0 < N) (s : Fin N → EReal) (S : Fin N → ℝ) (hS : ∀ n, s n = (S n : EReal)) :
    ∃ m : ℝ, (Finset.univ : Finset (Fin N)).fold max (⊥ : EReal) s = (m : EReal)
      ∧ (∀ n, Ideal.exp (s n - (m : EReal)) = ((Real.exp (S n - m) : ℝ) : EReal))
      ∧ (∑ j : Fin N, Ideal.exp (s j - (m : EReal))) = ((∑ j : Fin N, Real.exp (S j - m) : ℝ) : EReal)
      ∧ 0 < ∑ j : Fin N, Real.exp (S j - m) := by
  haveI : Nonempty (Fin N) := ⟨⟨0, hN⟩⟩
  obtain ⟨m, hm⟩ := fold_max_real (Finset.univ_nonempty (α := Fin N)) S
  have hs : s = fun n => (S n : EReal) := funext hS
  have hexp : ∀ n, Ideal.exp (s n - (m : EReal)) = ((Real.exp (S n - m) : ℝ) : EReal) := by
    intro n
    rw [hS n, ← EReal.coe_sub, Ideal.exp_coe]
  refine ⟨m, by rw [hs]; exact hm, hexp, ?_, ?_⟩
  · rw [coe_sum]
    exact Finset.sum_congr rfl fun j _ => hexp j
  · exact Finset.sum_pos (fun j _ => Real.exp_pos _) Finset.univ_nonempty

theorem weights_eq {N : ℕ} (hN : 0 < N) (s : Fin N → EReal) (hs : ∀ n, ∃ r : ℝ, s n = (r : EReal)) (n : Fin N) :
    Ideal.exp (s n - Finset.univ.fold max ⊥ s) * Ideal.div 1 (∑ j : Fin N, Ideal.exp (s j - Finset.univ.fold max ⊥ s))
      = Ideal.div (Ideal.exp (s n - max ⊥ (Finset.univ.fold max ⊥ s))) (0 + ∑ j : Fin N, Ideal.exp (s j - max ⊥ (Finset.univ.fold max ⊥ s))) := by
  choose S hS using hs
  obtain ⟨m, hm, hexp, hsum, hpos⟩ := row_real hN s S hS
  rw [max_bot_left, zero_add, hm, hsum, Ideal.div_coe hpos.ne', Ideal.div_coe hpos.ne', one_mul]

theorem output_eq {N : ℕ} (hN : 0 < N) (s : Fin N → EReal) (hs : ∀ n, ∃ r : ℝ, s n = (r : EReal)) (v : Fin N → EReal) (hv : ∀ n, ∃ r : ℝ, v n = (r : EReal)) :
    (∑ n : Fin N, Ideal.exp (s n - Finset.univ.fold max ⊥ s) * v n) * Ideal.div 1 (∑ j : Fin N, Ideal.exp (s j - Finset.univ.fold max ⊥ s))
      = ∑ n : Fin N, Ideal.div (Ideal.exp (s n - max ⊥ (Finset.univ.fold max ⊥ s))) (0 + ∑ j : Fin N, Ideal.exp (s j - max ⊥ (Finset.univ.fold max ⊥ s))) * v n := by
  choose S hS using hs
  choose V hV using hv
  obtain ⟨m, hm, hexp, hsum, hpos⟩ := row_real hN s S hS
  rw [max_bot_left, zero_add, hm, hsum, Ideal.div_coe hpos.ne', one_mul]
  simp only [Ideal.div_coe hpos.ne', hexp, hV]
  set L : ℝ := ∑ j : Fin N, Real.exp (S j - m) with hL
  calc (∑ n : Fin N, ((Real.exp (S n - m) : ℝ) : EReal) * (V n : EReal)) * ((1 / L : ℝ) : EReal)
      = (((∑ n : Fin N, Real.exp (S n - m) * V n) * (1 / L) : ℝ) : EReal) := by
        simp only [coe_sum, EReal.coe_mul]
    _ = ((∑ n : Fin N, Real.exp (S n - m) * (1 / L) * V n : ℝ) : EReal) := by
        rw [Finset.sum_mul]
        congr 1
        exact Finset.sum_congr rfl fun n _ => by ring
    _ = ∑ n : Fin N, ((Real.exp (S n - m) : ℝ) : EReal) * ((1 / L : ℝ) : EReal) * (V n : EReal) := by
        simp only [coe_sum, EReal.coe_mul]

end SoftmaxAlgebra
-- ==== Proof.Bridge.lean ====
/-
  One grid point's tile against the reference's rows.

  The tile of grid point (b, h, t) holds the query rows t·1024 + l of head (b, h), all of the head's key and value
  rows and the head's matrix w.  When every input entry is a real number:

  * the kernel's score Σ_e (Σ_d q(l,d) (w(d,e)/8)) k(n,e) is the reference's (Σ_e (Σ_d w(d,e) q(l,d)) k(n,e)) · 64^(-1/2)
    — the scale 1/8 is a common factor of every summand, and 64^(-1/2) = 1/8 —, and it is a real number;
  * so both sides exponentiate the same real scores less the same row maximum, and the kernel's product with the
    reciprocal of the row's sum is the reference's quotient by that sum (the sum is a positive real);
  * and the kernel's product of the exponentials with v, scaled afterwards by the reciprocal, is the reference's
    product of the weights with v.
-/
import proofs.«430944_j14207751815439_3_alg».proof.Proof.Tile
import proofs.«430944_j14207751815439_3_alg».proof.Proof.RefRows
import proofs.«430944_j14207751815439_3_alg».proof.Proof.SoftmaxAlgebra

noncomputable section

namespace Cert.Bridge

open Idealize.ShloMosaic Idealize.ShloMosaic.ValueIdx

/-- The real-valued inputs: the four argument arrays with every entry a real number. -/
structure RealInputs (x0 x1 x2 : FVec Ideal Cert.ReferenceIdeal.S2x16x2048x64 .f32) (x3 : FVec Ideal Cert.ReferenceIdeal.S2x16x64x64 .f32) : Prop where
  q : ∀ i, ∃ r : ℝ, x0 i = (r : EReal)
  k : ∀ i, ∃ r : ℝ, x1 i = (r : EReal)
  v : ∀ i, ∃ r : ℝ, x2 i = (r : EReal)
  w : ∀ i, ∃ r : ℝ, x3 i = (r : EReal)

/-- A tile of head (b, h): its query rows are the rows `row l` of the head, its key and value rows and its matrix the
    head's own. -/
structure TileOf (x0 x1 x2 : FVec Ideal Cert.ReferenceIdeal.S2x16x2048x64 .f32) (x3 : FVec Ideal Cert.ReferenceIdeal.S2x16x64x64 .f32)
    (b : Fin 2) (h : Fin 16) (row : Fin 1024 → Fin 2048)
    (q : FVec Ideal Cert.KernelIdeal.S1x1x1024x64 .f32) (k v : FVec Ideal Cert.KernelIdeal.S1x1x2048x64 .f32)
    (w : FVec Ideal Cert.KernelIdeal.S1x1x64x64 .f32) : Prop where
  q : ∀ (l : Fin 1024) (d : Fin 64), q (ix4 (0 : Fin 1) (0 : Fin 1) l d) = x0 (ix4 b h (row l) d)
  k : ∀ (n : Fin 2048) (e : Fin 64), k (ix4 (0 : Fin 1) (0 : Fin 1) n e) = x1 (ix4 b h n e)
  v : ∀ (n : Fin 2048) (d : Fin 64), v (ix4 (0 : Fin 1) (0 : Fin 1) n d) = x2 (ix4 b h n d)
  w : ∀ (d e : Fin 64), w (ix4 (0 : Fin 1) (0 : Fin 1) d e) = x3 (ix4 b h d e)

variable {x0 x1 x2 : FVec Ideal Cert.ReferenceIdeal.S2x16x2048x64 .f32} {x3 : FVec Ideal Cert.ReferenceIdeal.S2x16x64x64 .f32}
variable {b : Fin 2} {h : Fin 16} {row : Fin 1024 → Fin 2048}
variable {q : FVec Ideal Cert.KernelIdeal.S1x1x1024x64 .f32} {k v : FVec Ideal Cert.KernelIdeal.S1x1x2048x64 .f32}
variable {w : FVec Ideal Cert.KernelIdeal.S1x1x64x64 .f32}

open Cert.KernelIdeal (Tile.score Tile.rowMax Tile.expo Tile.qw Tile.eighth)
open Cert.ReferenceIdeal (Rows.score Rows.rowMax Rows.expo Rows.weight Rows.scale)

/-- The kernel's splat scale is the real 1/8. -/
theorem eighth_eq : Tile.eighth = ((1 / 8 : ℝ) : EReal) := SoftmaxAlgebra.ofBits_eighth

/-- The reference's computed scale is the real 1/8. -/
theorem scale_eq : Rows.scale = ((1 / 8 : ℝ) : EReal) := SoftmaxAlgebra.pow_64_neg_half

/-- THE SCORES AGREE. -/
theorem score_eq (hx : RealInputs x0 x1 x2 x3) (ht : TileOf x0 x1 x2 x3 b h row q k v w) (l : Fin 1024) (n : Fin 2048) :
    Tile.score q k w l n = Rows.score x0 x1 x3 b h (row l) n := by
  unfold Tile.score Tile.qw Rows.score
  simp only [ht.q, ht.k, ht.w]
  rw [eighth_eq, scale_eq]
  exact SoftmaxAlgebra.score_eq (fun d => x0 (ix4 b h (row l) d)) (fun d e => x3 (ix4 b h d e)) (fun e => x1 (ix4 b h n e))
    ((1 / 8 : ℝ) : EReal) (fun d => hx.q _) (fun d e => hx.w _) (fun e => hx.k _) ⟨_, rfl⟩

/-- The reference's scores are real numbers. -/
theorem score_real (hx : RealInputs x0 x1 x2 x3) (b : Fin 2) (h : Fin 16) (l n : Fin 2048) :
    ∃ r : ℝ, Rows.score x0 x1 x3 b h l n = (r : EReal) := by
  unfold Rows.score
  rw [scale_eq]
  exact SoftmaxAlgebra.score_real (fun d => x0 (ix4 b h l d)) (fun d e => x3 (ix4 b h d e)) (fun e => x1 (ix4 b h n e))
    ((1 / 8 : ℝ) : EReal) (fun d => hx.q _) (fun d e => hx.w _) (fun e => hx.k _) ⟨_, rfl⟩

/-- The kernel's exponential over the reference's row of scores. -/
theorem tile_expo (hx : RealInputs x0 x1 x2 x3) (ht : TileOf x0 x1 x2 x3 b h row q k v w) (l : Fin 1024) (n : Fin 2048) :
    Tile.expo q k w l n
      = Ideal.exp (Rows.score x0 x1 x3 b h (row l) n
          - (Finset.univ : Finset (Fin 2048)).fold max ⊥ (fun j => Rows.score x0 x1 x3 b h (row l) j)) := by
  unfold Tile.expo Tile.rowMax
  rw [SoftmaxAlgebra.ofBits_neg_inf, score_eq hx ht l n]
  have e : (fun j => Tile.score q k w l j) = fun j => Rows.score x0 x1 x3 b h (row l) j := funext fun j => score_eq hx ht l j
  rw [e]

/-- The reference's exponential over its row of scores, the constants read. -/
theorem rows_expo (b : Fin 2) (h : Fin 16) (l n : Fin 2048) :
    Rows.expo x0 x1 x3 b h l n
      = Ideal.exp (Rows.score x0 x1 x3 b h l n
          - max ⊥ ((Finset.univ : Finset (Fin 2048)).fold max ⊥ (fun j => Rows.score x0 x1 x3 b h l j))) := by
  unfold Rows.expo Rows.rowMax
  rw [SoftmaxAlgebra.ofBits_neg_inf]

/-- THE WEIGHTS AGREE: the exponential times the reciprocal of the row's sum is the exponential over the sum. -/
theorem weight_eq (hx : RealInputs x0 x1 x2 x3) (ht : TileOf x0 x1 x2 x3 b h row q k v w) (l : Fin 1024) (n : Fin 2048) :
    Tile.expo q k w l n * Ideal.div (Ideal.ofBits .f32 0x3F800000#32) (∑ j : Fin 2048, Tile.expo q k w l j)
      = Rows.weight x0 x1 x3 b h (row l) n := by
  unfold Rows.weight
  simp only [tile_expo hx ht, rows_expo]
  rw [SoftmaxAlgebra.ofBits_one, Ideal.ofBits_zero_f32]
  exact SoftmaxAlgebra.weights_eq (by decide) (fun j => Rows.score x0 x1 x3 b h (row l) j) (fun j => score_real hx b h (row l) j) n

/-- THE OUTPUTS AGREE: the exponentials' product with v, scaled by the reciprocal of the row's sum, is the weights'
    product with v. -/
theorem output_eq (hx : RealInputs x0 x1 x2 x3) (ht : TileOf x0 x1 x2 x3 b h row q k v w) (l : Fin 1024) (d : Fin 64) :
    (∑ n : Fin 2048, Tile.expo q k w l n * v (ix4 (0 : Fin 1) (0 : Fin 1) n d))
        * Ideal.div (Ideal.ofBits .f32 0x3F800000#32) (∑ j : Fin 2048, Tile.expo q k w l j)
      = ∑ n : Fin 2048, Rows.weight x0 x1 x3 b h (row l) n * x2 (ix4 b h n d) := by
  unfold Rows.weight
  simp only [tile_expo hx ht, rows_expo, ht.v]
  rw [SoftmaxAlgebra.ofBits_one, Ideal.ofBits_zero_f32]
  exact SoftmaxAlgebra.output_eq (by decide) (fun j => Rows.score x0 x1 x3 b h (row l) j) (fun j => score_real hx b h (row l) j)
    (fun n => x2 (ix4 b h n d)) (fun n => hx.v _)

end Cert.Bridge

end
-- ==== Proof.Arrays.lean ====
/-
  From the grid points' tiles to the two result arrays.

  Grid point t = (b, h, i) stages query rows i·1024 … i·1024 + 1023 of head (b, h), all key rows, all value rows and the
  matrix of that head, and writes back rows i·1024 … of head (b, h) of both results.  With every input entry real, what
  it writes back is the corresponding block of the reference's weights, respectively of the reference's output; the
  64 blocks tile each result array, so after the run each result array is the reference's.
-/
import proofs.«430944_j14207751815439_3_alg».proof.Proof.Gen.KernelIdeal.Value
import proofs.«430944_j14207751815439_3_alg».proof.Proof.Bridge

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open Cert.Bridge (RealInputs TileOf)

/-! ## One tile's blocks are the reference's, over variables of the literal shapes -/

section Tile
variable {x0 x1 x2 : FVec Ideal Cert.ReferenceIdeal.S2x16x2048x64 .f32} {x3 : FVec Ideal Cert.ReferenceIdeal.S2x16x64x64 .f32}
variable {b : Fin 2} {h : Fin 16} {row : Fin 1024 → Fin 2048}
variable {q : FVec Ideal S1x1x1024x64 .f32} {k v : FVec Ideal S1x1x2048x64 .f32} {w : FVec Ideal S1x1x64x64 .f32}

/-- The block of weights a tile leaves is the reference's weights on the tile's rows. -/
theorem weights_block (hx : RealInputs x0 x1 x2 x3) (ht : TileOf x0 x1 x2 x3 b h row q k v w) (y : S1x1x1024x2048.Idx) :
    Value.E5 (F := Ideal) q k w y
      = Cert.ReferenceIdeal.Read.val_main_v15 (F := Ideal) x0 x1 x3
          (ix4 b h (row (⟨(y 2).val, (y 2).isLt⟩ : Fin 1024)) (⟨(y 3).val, (y 3).isLt⟩ : Fin 2048)) := by
  rw [Cert.ReferenceIdeal.Rows.v15_at, ← Cert.Bridge.weight_eq hx ht (⟨(y 2).val, (y 2).isLt⟩ : Fin 1024) (⟨(y 3).val, (y 3).isLt⟩ : Fin 2048)]
  have e0 : Value.ix5_0 y = ix2 (⟨(y 2).val, (y 2).isLt⟩ : Fin 1024) (⟨(y 3).val, (y 3).isLt⟩ : Fin 2048) := by
    funext a; apply Fin.ext
    match a with
    | ⟨0, _⟩ => rfl
    | ⟨1, _⟩ => rfl
  have e1 : Value.ix5_1 y = ix1 (⟨(y 2).val, (y 2).isLt⟩ : Fin 1024) := by
    funext a; apply Fin.ext
    match a with
    | ⟨0, _⟩ => rfl
  show k0_pay2 (F := Ideal) q k w (Value.ix5_0 y) * Ideal.div (Ideal.ofBits .f32 0x3F800000#32)
    (multiReduction .add [1] S1024 (k0_pay2 (F := Ideal) q k w) 0x00000000#32 Facts₀.reduces_S1024x2048_S1024 (.inl rfl) rfl (Value.ix5_1 y)) = _
  rw [e0, e1, Tile.pay2_apply, Tile.rowSum_apply]

/-- The block of outputs a tile leaves is the reference's output on the tile's rows. -/
theorem output_block (hx : RealInputs x0 x1 x2 x3) (ht : TileOf x0 x1 x2 x3 b h row q k v w) (y : S1x1x1024x64.Idx) :
    Value.E4 (F := Ideal) q k v w y
      = Cert.ReferenceIdeal.Read.val_main_v16 (F := Ideal) x0 x1 x2 x3
          (ix4 b h (row (⟨(y 2).val, (y 2).isLt⟩ : Fin 1024)) (⟨(y 3).val, (y 3).isLt⟩ : Fin 64)) := by
  rw [Cert.ReferenceIdeal.Rows.v16_at, ← Cert.Bridge.output_eq hx ht (⟨(y 2).val, (y 2).isLt⟩ : Fin 1024) (⟨(y 3).val, (y 3).isLt⟩ : Fin 64)]
  have e0 : Value.ix4_0 y = ix2 (⟨(y 2).val, (y 2).isLt⟩ : Fin 1024) (⟨(y 3).val, (y 3).isLt⟩ : Fin 64) := by
    funext a; apply Fin.ext
    match a with
    | ⟨0, _⟩ => rfl
    | ⟨1, _⟩ => rfl
  have e1 : Value.ix4_1 y = ix1 (⟨(y 2).val, (y 2).isLt⟩ : Fin 1024) := by
    funext a; apply Fin.ext
    match a with
    | ⟨0, _⟩ => rfl
  show k0_pay5 (F := Ideal) q k v w (Value.ix4_0 y) * Ideal.div (Ideal.ofBits .f32 0x3F800000#32)
    (multiReduction .add [1] S1024 (k0_pay2 (F := Ideal) q k w) 0x00000000#32 Facts₀.reduces_S1024x2048_S1024 (.inl rfl) rfl (Value.ix4_1 y)) = _
  rw [e0, e1, Tile.pay5_apply, Tile.rowSum_apply]

end Tile

/-! ## The grid -/

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps, decided over the 64 grid points: every window's head coordinates are the weights
    window's, the query and output windows move with it along the rows, every other block index is 0, and the weights
    window's block indices stay in their ranges. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = win0_5.index t (1 : Fin 4)
      ∧ win0_3.index t (2 : Fin 4) = 0 ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 2 ∧ win0_5.index t (1 : Fin 4) < 16 ∧ win0_5.index t (2 : Fin 4) < 2
      ∧ win0_5.index t (3 : Fin 4) = 0) :=
  (by decide +kernel : ∀ t : Fin grid0.N, _)

/-- Every (head, row block) is some grid point's. -/
theorem idx_onto : ∀ (b : Fin 2) (h : Fin 16) (i : Fin 2), ∃ t : Fin cfg0.N, win0_5.index t = ![b.val, h.val, i.val, 0] :=
  (by decide +kernel : ∀ (b : Fin 2) (h : Fin 16) (i : Fin 2), ∃ t : Fin grid0.N, win0_5.index t = ![b.val, h.val, i.val, 0])

/-- The head and the rows of grid point t. -/
def batchOf (t : Fin cfg0.N) : Fin 2 := ⟨win0_5.index t (0 : Fin 4), (idx_facts t).2.2.2.2.2.1⟩
def headOf (t : Fin cfg0.N) : Fin 16 := ⟨win0_5.index t (1 : Fin 4), (idx_facts t).2.2.2.2.2.2.1⟩
def rowOf (t : Fin cfg0.N) (l : Fin 1024) : Fin 2048 :=
  ⟨win0_5.index t (2 : Fin 4) * 1024 + l.val, by have := (idx_facts t).2.2.2.2.2.2.2.1; have := l.isLt; omega⟩

/-- The argument arrays as the region finds them. -/
abbrev Q (c : Dev nD) : FVec Ideal Cert.ReferenceIdeal.S2x16x2048x64 .f32 := V m c main_arg0
abbrev K (c : Dev nD) : FVec Ideal Cert.ReferenceIdeal.S2x16x2048x64 .f32 := V m c main_arg1
abbrev Vv (c : Dev nD) : FVec Ideal Cert.ReferenceIdeal.S2x16x2048x64 .f32 := V m c main_arg2
abbrev W (c : Dev nD) : FVec Ideal Cert.ReferenceIdeal.S2x16x64x64 .f32 := V m c main_arg3

/-- The blocks grid point t stages, typed at their literal shapes. -/
abbrev qblk (c : Dev nD) (t : Fin cfg0.N) : FVec Ideal S1x1x1024x64 .f32 := iblk m c 0 t
abbrev kblk (c : Dev nD) (t : Fin cfg0.N) : FVec Ideal S1x1x2048x64 .f32 := iblk m c 1 t
abbrev vblk (c : Dev nD) (t : Fin cfg0.N) : FVec Ideal S1x1x2048x64 .f32 := iblk m c 2 t
abbrev wblk (c : Dev nD) (t : Fin cfg0.N) : FVec Ideal S1x1x64x64 .f32 := iblk m c 3 t

/-- THE STAGED BLOCKS of grid point t are the tile of its head and rows: a block's coordinate on an axis is the
    block index times the block's extent plus the coordinate inside the block. -/
theorem tileOf (c : Dev nD) (t : Fin cfg0.N) :
    TileOf (Q m c) (K m c) (Vv m c) (W m c) (batchOf t) (headOf t) (rowOf t) (qblk m c t) (kblk m c t) (vblk m c t) (wblk m c t) := by
  obtain ⟨⟨a0, a1, a2, a3⟩, ⟨b0, b1, b2, b3⟩, ⟨c0, c1, c2, c3⟩, ⟨d0, d1, d2, d3⟩, -, -⟩ := idx_facts t
  refine ⟨fun l d => ?_, fun n e => ?_, fun n d => ?_, fun d e => ?_⟩
  · show V m c main_arg0 (((cfg0.win 0).blk t).view.emb (ix4 (0 : Fin 1) (0 : Fin 1) l d)) = V m c main_arg0 (ix4 (batchOf t) (headOf t) (rowOf t l) d)
    refine congrArg (V m c main_arg0) (funext fun a => Fin.ext ?_)
    match a with
    | ⟨0, _⟩ => show win0_0.index t (0 : Fin 4) * 1 + 1 * 0 = win0_5.index t (0 : Fin 4); omega
    | ⟨1, _⟩ => show win0_0.index t (1 : Fin 4) * 1 + 1 * 0 = win0_5.index t (1 : Fin 4); omega
    | ⟨2, _⟩ => show win0_0.index t (2 : Fin 4) * 1024 + 1 * l.val = win0_5.index t (2 : Fin 4) * 1024 + l.val; omega
    | ⟨3, _⟩ => show win0_0.index t (3 : Fin 4) * 64 + 1 * d.val = d.val; omega
  · show V m c main_arg1 (((cfg0.win 1).blk t).view.emb (ix4 (0 : Fin 1) (0 : Fin 1) n e)) = V m c main_arg1 (ix4 (batchOf t) (headOf t) n e)
    refine congrArg (V m c main_arg1) (funext fun a => Fin.ext ?_)
    match a with
    | ⟨0, _⟩ => show win0_1.index t (0 : Fin 4) * 1 + 1 * 0 = win0_5.index t (0 : Fin 4); omega
    | ⟨1, _⟩ => show win0_1.index t (1 : Fin 4) * 1 + 1 * 0 = win0_5.index t (1 : Fin 4); omega
    | ⟨2, _⟩ => show win0_1.index t (2 : Fin 4) * 2048 + 1 * n.val = n.val; omega
    | ⟨3, _⟩ => show win0_1.index t (3 : Fin 4) * 64 + 1 * e.val = e.val; omega
  · show V m c main_arg2 (((cfg0.win 2).blk t).view.emb (ix4 (0 : Fin 1) (0 : Fin 1) n d)) = V m c main_arg2 (ix4 (batchOf t) (headOf t) n d)
    refine congrArg (V m c main_arg2) (funext fun a => Fin.ext ?_)
    match a with
    | ⟨0, _⟩ => show win0_2.index t (0 : Fin 4) * 1 + 1 * 0 = win0_5.index t (0 : Fin 4); omega
    | ⟨1, _⟩ => show win0_2.index t (1 : Fin 4) * 1 + 1 * 0 = win0_5.index t (1 : Fin 4); omega
    | ⟨2, _⟩ => show win0_2.index t (2 : Fin 4) * 2048 + 1 * n.val = n.val; omega
    | ⟨3, _⟩ => show win0_2.index t (3 : Fin 4) * 64 + 1 * d.val = d.val; omega
  · show V m c main_arg3 (((cfg0.win 3).blk t).view.emb (ix4 (0 : Fin 1) (0 : Fin 1) d e)) = V m c main_arg3 (ix4 (batchOf t) (headOf t) d e)
    refine congrArg (V m c main_arg3) (funext fun a => Fin.ext ?_)
    match a with
    | ⟨0, _⟩ => show win0_3.index t (0 : Fin 4) * 1 + 1 * 0 = win0_5.index t (0 : Fin 4); omega
    | ⟨1, _⟩ => show win0_3.index t (1 : Fin 4) * 1 + 1 * 0 = win0_5.index t (1 : Fin 4); omega
    | ⟨2, _⟩ => show win0_3.index t (2 : Fin 4) * 64 + 1 * d.val = d.val; omega
    | ⟨3, _⟩ => show win0_3.index t (3 : Fin 4) * 64 + 1 * e.val = e.val; omega

/-! ## The weights array (output window 5) -/

/-- The reference's weights of the argument arrays. -/
abbrev weights (c : Dev nD) : S2x16x2048x2048.Idx → Elt Ideal .f32 :=
  Cert.ReferenceIdeal.Read.val_main_v15 (F := Ideal) (Q m c) (K m c) (W m c)

/-- WHAT GRID POINT t WRITES BACK to the weights array is block t of the reference's weights. -/
theorem flushed5_eq (c : Dev nD) (hx : RealInputs (Q m c) (K m c) (Vv m c) (W m c)) (t : Fin cfg0.N) :
    (dats m 0 c).flushed 5 t = ((cfg0.win 5).blk t).view.read (Elt Ideal) (weights m c) := by
  rw [Value.flushed5]
  unfold out0_5
  simp only [View.ld_unit_zero (S := S1x1x1024x64) hz4, View.ld_unit_zero (S := S1x1x2048x64) hz4, View.ld_unit_zero (S := S1x1x64x64) hz4]
  obtain ⟨-, -, -, -, -, ⟨f0, f1, f2, f3⟩⟩ := idx_facts t
  funext y
  show View.canon [⟨r0_3, k0_pay4 (F := Ideal) (qblk m c t) (kblk m c t) (wblk m c t)⟩] y
    = weights m c (((cfg0.win 5).blk t).view.emb y)
  refine (Value.canon5_eq (F := Ideal) (qblk m c t) (kblk m c t) (wblk m c t) y).trans ?_
  refine (weights_block hx (tileOf m c t) y).trans ?_
  refine congrArg (weights m c) (funext fun a => Fin.ext ?_)
  have hy0 : (y 0).val < 1 := (y 0).isLt
  have hy1 : (y 1).val < 1 := (y 1).isLt
  match a with
  | ⟨0, _⟩ => show win0_5.index t (0 : Fin 4) = win0_5.index t (0 : Fin 4) * 1 + 1 * (y 0).val; omega
  | ⟨1, _⟩ => show win0_5.index t (1 : Fin 4) = win0_5.index t (1 : Fin 4) * 1 + 1 * (y 1).val; omega
  | ⟨2, _⟩ => show win0_5.index t (2 : Fin 4) * 1024 + (y 2).val = win0_5.index t (2 : Fin 4) * 1024 + 1 * (y 2).val; omega
  | ⟨3, _⟩ => show (y 3).val = win0_5.index t (3 : Fin 4) * 2048 + 1 * (y 3).val; omega

/-- An index of the weights array is in grid point t's block iff each coordinate is in the block's range. -/
theorem mem_blk5 (t : Fin cfg0.N) (i : S2x16x2048x2048.Idx) :
    i ∈ ((cfg0.win 5).blk t).view.set ↔ ∀ a : Fin 4, win0_5.index t a * S1x1x1024x2048.size a ≤ (i a).val ∧ (i a).val < win0_5.index t a * S1x1x1024x2048.size a + S1x1x1024x2048.size a := by
  show i ∈ ((View.whole main_v0_1).slice (win0_5.rect t)).set ↔ _
  rw [View.set_slice_whole, Rect.mem_set_unit]
  exact Iff.rfl

/-- The 64 blocks tile the weights array. -/
theorem cover5 (i : S2x16x2048x2048.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- THE WEIGHTS ARRAY after the run is the reference's weights. -/
theorem final5 (c : Dev nD) (hx : RealInputs (Q m c) (K m c) (Vv m c) (W m c)) :
    (dats m 0 c).arrAt 5 cfg0.N = weights m c :=
  (dats m 0 c).arrAt_eq_of_cover 5 (weights m c) (fun t _ => flushed5_eq m c hx t) cover5

/-! ## The output array (output window 4) -/

/-- The reference's output of the argument arrays. -/
abbrev output (c : Dev nD) : S2x16x2048x64.Idx → Elt Ideal .f32 :=
  Cert.ReferenceIdeal.Read.val_main_v16 (F := Ideal) (Q m c) (K m c) (Vv m c) (W m c)

/-- WHAT GRID POINT t WRITES BACK to the output array is block t of the reference's output. -/
theorem flushed4_eq (c : Dev nD) (hx : RealInputs (Q m c) (K m c) (Vv m c) (W m c)) (t : Fin cfg0.N) :
    (dats m 0 c).flushed 4 t = ((cfg0.win 4).blk t).view.read (Elt Ideal) (output m c) := by
  rw [Value.flushed4]
  unfold out0_4
  simp only [View.ld_unit_zero (S := S1x1x1024x64) hz4, View.ld_unit_zero (S := S1x1x2048x64) hz4, View.ld_unit_zero (S := S1x1x64x64) hz4]
  obtain ⟨-, -, -, -, ⟨e0, e1, e2, e3⟩, ⟨f0, f1, f2, f3⟩⟩ := idx_facts t
  funext y
  show View.canon [⟨r0_0, k0_pay1 (k0_pay5 (F := Ideal) (qblk m c t) (kblk m c t) (vblk m c t) (wblk m c t)) (k0_pay6 (F := Ideal) (qblk m c t) (kblk m c t) (wblk m c t))⟩] y
    = output m c (((cfg0.win 4).blk t).view.emb y)
  refine (Value.canon4_eq (F := Ideal) (qblk m c t) (kblk m c t) (vblk m c t) (wblk m c t) y).trans ?_
  refine (output_block hx (tileOf m c t) y).trans ?_
  refine congrArg (output m c) (funext fun a => Fin.ext ?_)
  have hy0 : (y 0).val < 1 := (y 0).isLt
  have hy1 : (y 1).val < 1 := (y 1).isLt
  match a with
  | ⟨0, _⟩ => show win0_5.index t (0 : Fin 4) = win0_4.index t (0 : Fin 4) * 1 + 1 * (y 0).val; omega
  | ⟨1, _⟩ => show win0_5.index t (1 : Fin 4) = win0_4.index t (1 : Fin 4) * 1 + 1 * (y 1).val; omega
  | ⟨2, _⟩ => show win0_5.index t (2 : Fin 4) * 1024 + (y 2).val = win0_4.index t (2 : Fin 4) * 1024 + 1 * (y 2).val; omega
  | ⟨3, _⟩ => show (y 3).val = win0_4.index t (3 : Fin 4) * 64 + 1 * (y 3).val; omega

theorem mem_blk4 (t : Fin cfg0.N) (i : S2x16x2048x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v0_0).slice (win0_4.rect t)).set ↔ _
  rw [View.set_slice_whole, Rect.mem_set_unit]
  exact Iff.rfl

/-- The 64 blocks tile the output array. -/
theorem cover4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  obtain ⟨-, -, -, -, ⟨e0, e1, e2, e3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- THE OUTPUT ARRAY after the run is the reference's output. -/
theorem final4 (c : Dev nD) (hx : RealInputs (Q m c) (K m c) (Vv m c) (W m c)) :
    (dats m 0 c).arrAt 4 cfg0.N = output m c :=
  (dats m 0 c).arrAt_eq_of_cover 4 (output m c) (fun t _ => flushed4_eq m c hx t) cover4

end Cert.KernelIdeal.Arrays

end
-- ==== Proof.lean ====
/-
  Bilinear attention with a softmax over all keys: the tiled kernel against the jnp reference, over the extended reals.

  For each head (b, h) both programs compute the scores s(l, n) = Σ_e (Σ_d q(l,d) w(d,e)) k(n,e) / 8, the weights
  exp(s(l,n) - max_n s(l,n)) / Σ_n exp(s(l,n) - max_n s(l,n)), and the output Σ_n weight(l,n) v(n,d).  They differ
  in where the scale 1/8 enters (the kernel scales w, the reference scales the scores by 64^(-1/2) = 1/8), in the order
  of the two factors of a product, in dividing by the row's sum against multiplying with its reciprocal, and in
  normalising before against after the product with v.  With every input entry a real number (the precondition) all
  of these are identities of real numbers: a common factor comes out of a finite sum, and the row's sum of
  exponentials is a positive real.

  The kernel runs one grid point per (b, h, block of 1024 query rows); the 64 blocks it writes back tile each result
  array.  The three programs' frames are the generated ones (the reference's is its run with the results dropped), and
  the idealization rewrote nothing.
-/
import proofs.«430944_j14207751815439_3_alg».proof.Defs
import proofs.«430944_j14207751815439_3_alg».proof.Proof.Gen.Kernel
import proofs.«430944_j14207751815439_3_alg».proof.Proof.Gen.Kernel.Skeleton
import proofs.«430944_j14207751815439_3_alg».proof.Proof.Gen.Kernel.Launch
import proofs.«430944_j14207751815439_3_alg».proof.Proof.Gen.Kernel.Points
import proofs.«430944_j14207751815439_3_alg».proof.Proof.Gen.Kernel.Frame
import proofs.«430944_j14207751815439_3_alg».proof.Proof.Gen.KernelIdeal
import proofs.«430944_j14207751815439_3_alg».proof.Proof.Gen.KernelIdeal.Skeleton
import proofs.«430944_j14207751815439_3_alg».proof.Proof.Gen.KernelIdeal.Launch
import proofs.«430944_j14207751815439_3_alg».proof.Proof.Gen.KernelIdeal.Points
import proofs.«430944_j14207751815439_3_alg».proof.Proof.Gen.KernelIdeal.Frame
import proofs.«430944_j14207751815439_3_alg».proof.Proof.Gen.ReferenceIdeal
import proofs.«430944_j14207751815439_3_alg».proof.Proof.Gen.Pre_finite_inputs
import proofs.«430944_j14207751815439_3_alg».proof.Proof.Gen.KernelIdeal.Value
import proofs.«430944_j14207751815439_3_alg».proof.Proof.Gen.ReferenceIdeal.Run
import proofs.«430944_j14207751815439_3_alg».proof.Proof.Gen.ReferenceIdeal.Read
import proofs.«430944_j14207751815439_3_alg».proof.Proof.FiniteInputs
import proofs.«430944_j14207751815439_3_alg».proof.Proof.Arrays
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Under the precondition every entry of the four argument arrays is a real number. -/
theorem realInputs (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Bridge.RealInputs (Cert.KernelIdeal.Arrays.Q m c) (Cert.KernelIdeal.Arrays.K m c) (Cert.KernelIdeal.Arrays.Vv m c)
      (Cert.KernelIdeal.Arrays.W m c) := by
  obtain ⟨h0, h1, h2, h3⟩ := FiniteInputs.reals_of_pre _ _ _ _ (hpre c)
  exact ⟨h0, h1, h2, h3⟩

/-- Both programs end with the reference's output and weights of the argument arrays: the kernel's result arrays are
    those where its 64 blocks land (every input entry being real), the reference's run ends at the same terms of
    arguments that agree. -/
theorem algebraic : Cert.algebraic_KernelIdeal_ReferenceIdeal := by
  intro m ρ m' ρ' hpre hagree
  refine ⟨fun c => Cert.KernelIdeal.Arrays.output m c, fun c => Cert.KernelIdeal.Arrays.weights m c, ?_, ?_⟩
  · exact (θ_run Cert.KernelIdeal.defs _ _).mono
      (fun r h c => ⟨(h c).1.trans (Cert.KernelIdeal.Arrays.final4 m c (realInputs m hpre c)),
        (h c).2.1.trans (Cert.KernelIdeal.Arrays.final5 m c (realInputs m hpre c)), (h c).2.2⟩)
      (Cert.KernelIdeal.Value.run_blocks m ρ)
  · refine (θ_run Cert.ReferenceIdeal.defs _ _).mono (fun r h c => ⟨?_, ?_, (h c).2.2⟩)
      (Cert.ReferenceIdeal.Value.run (F := Ideal) m' ρ')
    · refine (h c).1.trans ((Cert.ReferenceIdeal.Read.val_main_v16_eq _ _ _ _).trans ?_)
      rw [(hagree c).1, (hagree c).2.1, (hagree c).2.2.1, (hagree c).2.2.2]
    · refine (h c).2.1.trans ((Cert.ReferenceIdeal.Read.val_main_v15_eq _ _ _).trans ?_)
      rw [(hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
